-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048x64 : Shape := ⟨3, ![512, 2048, 64]⟩
abbrev S_ : Shape := ⟨0, ![]⟩

class Facts : Prop where
  bcast_S_S512x2048x64 : S_.BroadcastsInDim S512x2048x64 (![] : Fin 0 → Fin S512x2048x64.rank)
  reducesTo_S512x2048x64_S_d0_1_2 : S512x2048x64.ReducesTo [0, 1, 2] S_
  h_S_ : 0 < S_.numel

variable [Facts]

def fn {F : FTy → Type} [FloatOps F] (main_arg0 : FVec F S512x2048x64 .f32) (main_arg1 : FVec F S512x2048x64 .f32) : IVec S_ 1 :=
  let main_v0 : FVec F S512x2048x64 .f32 := Host.absf main_arg0
  let main_cst : FVec F S_ .f32 := constant S_ .f32 0x7F800000#32
  let main_v1 : FVec F S512x2048x64 .f32 := broadcastInDim S512x2048x64 ![] bcast_S_S512x2048x64 main_cst
  let main_v2 : IVec S512x2048x64 1 := cmpf .olt main_v0 main_v1
  let main_c : IVec S_ 1 := constantI S_ 1 1#1
  let main_v3 : IVec S_ 1 := (fun x v => Host.reduce IntOp.andi x v reducesTo_S512x2048x64_S_d0_1_2 h_S_) main_v2 main_c
  let main_v4 : FVec F S512x2048x64 .f32 := Host.absf main_arg1
  let main_cst_0 : FVec F S_ .f32 := constant S_ .f32 0x7F800000#32
  let main_v5 : FVec F S512x2048x64 .f32 := broadcastInDim S512x2048x64 ![] bcast_S_S512x2048x64 main_cst_0
  let main_v6 : IVec S512x2048x64 1 := cmpf .olt main_v4 main_v5
  let main_c_1 : IVec S_ 1 := constantI S_ 1 1#1
  let main_v7 : IVec S_ 1 := (fun x v => Host.reduce IntOp.andi x v reducesTo_S512x2048x64_S_d0_1_2 h_S_) main_v6 main_c_1
  let main_v8 : IVec S_ 1 := andi main_v3 main_v7
  main_v8
-- ==== Kernel.lean ====
abbrev S512x2048x64 : Shape := ⟨3, ![512, 2048, 64]⟩
abbrev S512x2048 : Shape := ⟨2, ![512, 2048]⟩
abbrev S512x1 : Shape := ⟨2, ![512, 1]⟩
abbrev S128x256x64 : Shape := ⟨3, ![128, 256, 64]⟩
abbrev S128x256 : Shape := ⟨2, ![128, 256]⟩
abbrev S128x1 : Shape := ⟨2, ![128, 1]⟩
abbrev S128x256x1 : Shape := ⟨3, ![128, 256, 1]⟩
abbrev S128 : Shape := ⟨1, ![128]⟩
abbrev S512 : Shape := ⟨1, ![512]⟩
abbrev S_ : Shape := ⟨0, ![]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 53
  | .vmem => 9
  | .smem => 0
  | _ => 0

abbrev bufTy : (tb : Table) → Fin (tcTables nBuf tb) → BufTy
  | .hbm, ⟨0, _⟩ => ⟨S512x2048x64, .f32⟩
  | .hbm, ⟨1, _⟩ => ⟨S512x2048x64, .f32⟩
  | .hbm, ⟨2, _⟩ => ⟨S512x2048, .f32⟩
  | .hbm, ⟨3, _⟩ => ⟨S512x1, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S512x1x1, .i32⟩
  | .hbm, ⟨30, _⟩ => ⟨S1, .i32⟩
  | .hbm, ⟨31, _⟩ => ⟨S_, .i32⟩
  | .hbm, ⟨32, _⟩ => ⟨S512x1x1, .i32⟩
  | .hbm, ⟨33, _⟩ => ⟨S512x1x1, .i1⟩
  | .hbm, ⟨34, _⟩ => ⟨S1x1x1, .i32⟩
  | .hbm, ⟨35, _⟩ => ⟨S512x1x1, .i32⟩
  | .hbm, ⟨36, _⟩ => ⟨S512x1x1, .i1⟩
  | .hbm, ⟨37, _⟩ => ⟨S512x1x1, .i1⟩
  | .hbm, ⟨38, _⟩ => ⟨S_, .i1⟩
  | .hbm, ⟨39, _⟩ => ⟨S512x1, .i1⟩
  | .hbm, ⟨40, _⟩ => ⟨S512x1, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S128x256x64, .f32⟩
  | .local _ .vmem, ⟨1, _⟩ => ⟨S128x256x64, .f32⟩
  | .local _ .vmem, ⟨2, _⟩ => ⟨S128x256x64, .f32⟩
  | .local _ .vmem, ⟨3, _⟩ => ⟨S128x256x64, .f32⟩
  | .local _ .vmem, ⟨4, _⟩ => ⟨S128x256, .f32⟩
  | .local _ .vmem, ⟨5, _⟩ => ⟨S128x256, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | _, _ => ⟨S512x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x256x64_S128x256x64_0_0_0 : ∀ a, (![0, 0, 0] : Fin 3 → Nat) a + S128x256x64.size a ≤ S128x256x64.size a
  h_S128x256x64 : 0 < S128x256x64.numel
  slices_S128x256x64_o0_0_0_S128x256x1 : S128x256x64.Slices ![0, 0, 0] S128x256x1
  shapeCasts_S128x256x1_S128x256 : S128x256x1.ShapeCasts S128x256
  inb_S128x256_S128x256_0_0 : ∀ a, (![0, 0] : Fin 2 → Nat) a + S128x256.size a ≤ S128x256.size a
  h_S128x256 : 0 < S128x256.numel
  slices_S128x256x64_o0_0_1_S128x256x1 : S128x256x64.Slices ![0, 0, 1] S128x256x1
  natLt_1_32 : 1 < 32
  reduces_S128x256_S128 : S128x256.Reduces [1] S128
  shapeCasts_S128_S128x1 : S128.ShapeCasts S128x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  h_S_ : 0 < S_.numel
  reducesTo_S512_S_d0 : S512.ReducesTo [0] S_
  gather_S512x2048_S512x1x1_S512x1_n_1_0_0_1_2_11_wf : GatherDims.WF S512x2048 S512x1x1 S512x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x64.size a ≤ S512x2048x64.size a
  hwx0_0 : ∀ i : grid0.Coords, EltTy.bits .f32 = 32 ∨ (Rect.block (s := S512x2048x64) S128x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256x64.size a ≤ S512x2048x64.size a
  hwx0_1 : ∀ i : grid0.Coords, EltTy.bits .f32 = 32 ∨ (Rect.block (s := S512x2048x64) S128x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S512x2048.size a
  hwx0_2 : ∀ i : grid0.Coords, EltTy.bits .f32 = 32 ∨ (Rect.block (s := S512x2048) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S512x1.size a
  hwx0_3 : ∀ i : grid0.Coords, EltTy.bits .f32 = 32 ∨ (Rect.block (s := S512x1) S128x1.size (cc0_transform_3 i) (hinb0_3 i)).WholeWords (EltTy.packing .f32)

variable [Facts₀]

def gather_S512x2048_S512x1x1_S512x1_n_1_0_0_1_2_11 : GatherDims S512x2048 S512x1x1 S512x1 where
  offsetDims := []
  collapsedSliceDims := [1]
  operandBatchingDims := [0]
  startIndicesBatchingDims := [0]
  startIndexMap := [1]
  indexVectorDim := 2
  sliceSizes := ![1, 1]
  wf := gather_S512x2048_S512x1x1_S512x1_n_1_0_0_1_2_11_wf

abbrev win0_0 : Pipeline.Window sig grid0 :=
  Pipeline.Window.ofSpec (Memref.whole main_arg0) S128x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x2048x64 : Shape := ⟨3, ![512, 2048, 64]⟩
abbrev S512x2048x1 : Shape := ⟨3, ![512, 2048, 1]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S512x2048x64, .f32⟩
  | .hbm, ⟨1, _⟩ => ⟨S512x2048x64, .f32⟩
  | .hbm, ⟨2, _⟩ => ⟨S512x2048x1, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .i1⟩
  | .hbm, ⟨7, _⟩ => ⟨S512x2048, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512x2048x1, .f32⟩
  | .hbm, ⟨27, _⟩ => ⟨S512x2048, .f32⟩
  | .hbm, ⟨28, _⟩ => ⟨S512x2048x1, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S_, .i32⟩
  | .hbm, ⟨37, _⟩ => ⟨S512x1, .i32⟩
  | .hbm, ⟨38, _⟩ => ⟨S512x1, .i32⟩
  | .hbm, ⟨39, _⟩ => ⟨S512x1, .i32⟩
  | .hbm, ⟨40, _⟩ => ⟨S512x1x1, .i32⟩
  | .hbm, ⟨41, _⟩ => ⟨S1, .i32⟩
  | .hbm, ⟨42, _⟩ => ⟨S_, .i32⟩
  | .hbm, ⟨43, _⟩ => ⟨S512x1x1, .i32⟩
  | .hbm, ⟨44, _⟩ => ⟨S512x1x1, .i1⟩
  | .hbm, ⟨45, _⟩ => ⟨S1x1x1, .i32⟩
  | .hbm, ⟨46, _⟩ => ⟨S512x1x1, .i32⟩
  | .hbm, ⟨47, _⟩ => ⟨S512x1x1, .i1⟩
  | .hbm, ⟨48, _⟩ => ⟨S512x1x1, .i1⟩
  | .hbm, ⟨49, _⟩ => ⟨S_, .i1⟩
  | .hbm, ⟨50, _⟩ => ⟨S512x1, .i1⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S512x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩

abbrev nD : Nat := 1
abbrev τ : Topo := Topo.v7x

variable {F : FTy → Type} [FloatOps F]

class Facts₀ : Prop where
  slices_S512x2048x64_S512x2048x1_0_0_1 : S512x2048x64.Slices ![0, 0, 1] S512x2048x1
  shapeCasts_S512x2048x1_S512x2048 : S512x2048x1.ShapeCasts S512x2048
  bcast_S_S512x2048 : S_.BroadcastsInDim S512x2048 (![] : Fin 0 → Fin S512x2048.rank)
  reducesTo_S512x2048_S512_d1 : S512x2048.ReducesTo [1] S512
  h_S_ : 0 < S_.numel
  bcast_S_S512 : S_.BroadcastsInDim S512 (![] : Fin 0 → Fin S512.rank)
  slices_S512x2048x64_S512x2048x1_0_0_0 : S512x2048x64.Slices ![0, 0, 0] S512x2048x1
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  gather_S512x2048_S512x1x1_S512x1_n_1_0_0_1_2_11_wf : GatherDims.WF S512x2048 S512x1x1 S512x1 [] [1] [0] [1] [0] 2 ![1, 1]

variable [Facts₀]

def gather_S512x2048_S512x1x1_S512x1_n_1_0_0_1_2_11 : GatherDims S512x2048 S512x1x1 S512x1 where
  offsetDims := []
  collapsedSliceDims := [1]
  operandBatchingDims := [0]
  startIndicesBatchingDims := [0]
  startIndexMap := [1]
  indexVectorDim := 2
  sliceSizes := ![1, 1]
  wf := gather_S512x2048_S512x1x1_S512x1_n_1_0_0_1_2_11_wf

class Facts : Prop extends Facts₀ where

variable [Facts]
-- ==== Proof.HostTail.lean ====
/-
  The host lines after the kernel region, as ONE function of the squared-error array and the per-row count.

  From the count t of a row: the weight 1 + 0.7 · (t / 2047)^2.5 and the position t − 1 (as a 32-bit integer, a negative
  one wrapped by adding 2048, one outside 0 … 2047 answered by the fill value); from the squared-error array: the entry
  at that position of each row; then the mean over the 512 rows of entry · weight · 64. Both programs run exactly
  these lines; they are carried here as one function and never opened.

  The kernel's program applies it to the two arrays its region leaves (the count column first read as a vector).
-/
import proofs.«136391_j46995532153317_1_alg».proof.Proof.Gen.KernelIdeal.Frame
import Idealize.ShloMosaic.Lib.StableHlo.Run
import Idealize.ShloMosaic.Lib.Pipeline.FrameSuffix

noncomputable section

namespace Cert.KernelIdeal.HostTail

open Cert.KernelIdeal Cert.KernelIdeal.Gen Idealize.ShloMosaic Idealize.ShloMosaic.TcCoe Idealize.SL.Sem Idealize.ShloMosaic.StableHlo

variable {F : FTy → Type} [FloatOps F]

/-- The weight of a row from its count: 1 + 0.7 · (t / 2047)^2.5. -/
def weight (T : FVec F S512 .f32) : FVec F S512 .f32 :=
  addf (broadcastInDim S512 ![] bcast_S_S512 (constant S_ .f32 0x3F800000#32))
    (mulf (broadcastInDim S512 ![] bcast_S_S512 (constant S_ .f32 0x3F333333#32))
      (Host.powf (Host.divf T (broadcastInDim S512 ![] bcast_S_S512 (constant S_ .f32 0x44FFE000#32)))
        (broadcastInDim S512 ![] bcast_S_S512 (constant S_ .f32 0x40200000#32))))

/-- The position read in each row, before wrapping: the count as an integer, minus one. -/
def position (T : FVec F S512 .f32) : IVec S512x1 32 :=
  broadcastInDim S512x1 ![0] bcast_S512_S512x1_0 (subi (fptosi 32 T) (broadcastInDim S512 ![] bcast_S_S512 (constantI S_ 32 1#32)))

/-- The position with a negative one wrapped around the horizon. -/
def wrapped (T : FVec F S512 .f32) : IVec S512x1x1 32 :=
  shapeCast S512x1x1
    (select (cmpi .slt (position T) (broadcastInDim S512x1 ![] bcast_S_S512x1 (constantI S_ 32 0#32)))
      (addi (position T) (broadcastInDim S512x1 ![] bcast_S_S512x1 (constantI S_ 32 2048#32))) (position T))
    shapeCasts_S512x1_S512x1x1

/-- The entry of each row at its position (the fill value where the position is outside the horizon). -/
def picked (L : FVec F S512x2048 .f32) (T : FVec F S512 .f32) : FVec F S512x1 .f32 :=
  select
    (Host.reduce IntOp.andi
      (andi (cmpi .sge (wrapped T) (broadcastInDim S512x1x1 ![] bcast_S_S512x1x1 (constantI S_ 32 0#32)))
        (cmpi .sle (wrapped T) (broadcastInDim S512x1x1 ![0, 1, 2] bcast_S1x1x1_S512x1x1_0_1_2
          (broadcastInDim S1x1x1 ![2] bcast_S1_S1x1x1_2 (constantI S1 32 2047#32)))))
      (constantI S_ 1 1#1) reducesTo_S512x1x1_S512x1_d2 h_S_)
    (Host.gather gather_S512x2048_S512x1x1_S512x1_n_1_0_0_1_2_11 L (wrapped T))
    (broadcastInDim S512x1 ![] bcast_S_S512x1 (constant S_ .f32 0x7FC00000#32))

/-- The weighted loss: the mean over the rows of entry · weight · 64. -/
def weightedLoss (L : FVec F S512x2048 .f32) (T : FVec F S512 .f32) : FVec F S_ .f32 :=
  Host.divf
    (Host.reduceAdd
      (mulf (mulf (shapeCast S512 (picked L T) shapeCasts_S512x1_S512) (weight T))
        (broadcastInDim S512 ![] bcast_S_S512 (constant S_ .f32 0x42800000#32)))
      (constant S_ .f32 0x00000000#32) reducesTo_S512_S_d0 h_S_)
    (constant S_ .f32 0x44000000#32)

variable (m : (ℓ : Loc nD τ sig) → Buf (Elt F) ℓ)

/-- The contents the host lines after the region start from: the region's arrays at what it left, the rest as before. -/
abbrev afterRegion (c : Dev nD) : Valuation τ sig (Elt F) :=
  Pipeline.withArrays spec0 c (V0 m c) fun w => (dats m 0 c).arrAt w cfg0.N

theorem afterRegion_sqerr (c : Dev nD) : afterRegion m c (Proc.devRef .tc main_v0_0) = (dats m 0 c).arrAt 2 cfg0.N :=
  Pipeline.withArrays_arr spec0 launch0.win.arr_inj c _ _ 2

theorem afterRegion_count (c : Dev nD) : afterRegion m c (Proc.devRef .tc main_v0_1) = (dats m 0 c).arrAt 3 cfg0.N :=
  Pipeline.withArrays_arr spec0 launch0.win.arr_inj c _ _ 3

set_option maxRecDepth 8192 in
set_option maxHeartbeats 4000000 in
/-- The host lines after the region, run from any contents W, leave at the program's result the weighted loss of W's
    squared-error array and W's count column read as a vector. -/
theorem tail_result (c : Dev nD) (W : Valuation τ sig (Elt F)) :
    StableHlo.after (List.flatten [hostOps1, hostOps1_1, hostOps1_2]) W (Proc.devRef .tc main_v20)
      = weightedLoss (W (Proc.devRef .tc main_v0_0)) (shapeCast S512 (W (Proc.devRef .tc main_v0_1)) shapeCasts_S512x1_S512) := by
  simp only [hostOps1, hostOps1_1, hostOps1_2, List.flatten_cons, List.flatten_nil, List.append_nil, List.cons_append, List.nil_append]
  after_results_simp <;> (try simp only [TRef.ofBuf, TRef.toBuf, cast_eq]) <;> (unfold weightedLoss picked wrapped position weight; rfl)

/-- THE KERNEL PROGRAM'S RESULT: the weighted loss of the two arrays its region leaves. -/
theorem kernel_result (c : Dev nD) :
    Pipeline.afterTail₀ cfgs (dats m) 0 (V0 m) [hostOps1, hostOps1_1, hostOps1_2] c main_v20
      = weightedLoss ((dats m 0 c).arrAt 2 cfg0.N) (shapeCast S512 ((dats m 0 c).arrAt 3 cfg0.N) shapeCasts_S512x1_S512) := by
  unfold Pipeline.afterTail₀
  show StableHlo.after (List.flatten [hostOps1, hostOps1_1, hostOps1_2]) (afterRegion m c) (Proc.devRef .tc main_v20) = _
  rw [tail_result c (afterRegion m c), afterRegion_sqerr, afterRegion_count]

end Cert.KernelIdeal.HostTail

end
-- ==== Proof.Pieces.lean ====
/-
  What each control case of the kernel body leaves behind, as values.

  The body has three cases along the horizon axis: the first horizon tile of a batch tile (the count scratch is reset,
  then the tile's count added), a middle tile (the count added to what the scratch held), and the last tile (the count
  added, then the scratch copied to the count output). In every case the squared-error output block is the squared-error
  payload of the two input blocks; the scratch ends at the counting payload over what it held (over zero in the first
  case); and in the last case the count output is the scratch's final contents.
-/
import proofs.«136391_j46995532153317_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The squared-error block: the same payload in every case -/

theorem sqerr_A (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : cond0_0 i) (hc1 : ¬cond0_1 i) (x0 x1 : Vec F S128x256x64 .f32) :
    out0_A_2 c i a2 h2 a3 h3 a4 h4 a5 h5 a6 h6 hc0 hc1 x0 x1 = k0_pay2 x0 x1 := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_unit_zero hz2]
  simp only [View.readAt_eq_ld, h2.read_unread, h3.read_unread, h6.read_unread, View.ld_unit_zero (S := S128x256x64) hz3, View.ld_unit_zero (S := S128x1) hz2]

theorem sqerr_B (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : ¬cond0_0 i) (hc1 : ¬cond0_1 i) (x0 x1 : Vec F S128x256x64 .f32) (xs : Vec F S128x1 .f32) :
    out0_B_2 c i a2 h2 a3 h3 a4 h4 a5 h5 a6 h6 hc0 hc1 x0 x1 xs = k0_pay2 x0 x1 := by
  unfold out0_B_2
  rw [View.read_writes_eq_canon _ _ _ (cover0_B_2 c i a2 h2 a3 h3 a4 h4 a5 h5 a6 h6 hc0 hc1 x0 x1 xs)]
  unfold kernelRun0_B
  dsimp only
  sl_unfold_words
  rw [View.canon_unit_zero hz2]
  simp only [View.readAt_eq_ld, h2.read_unread, h3.read_unread, h6.read_unread, View.ld_unit_zero (S := S128x256x64) hz3, View.ld_unit_zero (S := S128x1) hz2]

theorem sqerr_C (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : ¬cond0_0 i) (hc1 : cond0_1 i) (x0 x1 : Vec F S128x256x64 .f32) (xs : Vec F S128x1 .f32) :
    out0_C_2 c i a2 h2 a3 h3 a4 h4 a5 h5 a6 h6 hc0 hc1 x0 x1 xs = k0_pay2 x0 x1 := by
  unfold out0_C_2
  rw [View.read_writes_eq_canon _ _ _ (cover0_C_2 c i a2 h2 a3 h3 a4 h4 a5 h5 a6 h6 hc0 hc1 x0 x1 xs)]
  unfold kernelRun0_C
  dsimp only
  sl_unfold_words
  rw [View.canon_unit_zero hz2]
  simp only [View.readAt_eq_ld, h2.read_unread, h3.read_unread, h6.read_unread, View.ld_unit_zero (S := S128x256x64) hz3, View.ld_unit_zero (S := S128x1) hz2]

/-! ## The count scratch -/

/-- First horizon tile: the scratch is zeroed, read back, and the tile's count added. -/
theorem scratch_A (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : cond0_0 i) (hc1 : ¬cond0_1 i) (x0 x1 : Vec F S128x256x64 .f32) :
    sout0_A_0 c i a2 h2 a3 h3 a4 h4 a5 h5 a6 h6 hc0 hc1 x0 x1 = k0_pay3 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S128x1) hz2, View.readCov_unit_zero (S := S128x1) _ hz2]
  simp only [View.readAt_eq_ld, h2.read_unread, h3.read_unread, h6.read_unread, View.ld_unit_zero (S := S128x256x64) hz3, View.ld_unit_zero (S := S128x1) hz2]

/-- A middle horizon tile: the tile's count added to what the scratch held. -/
theorem scratch_B (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : ¬cond0_0 i) (hc1 : ¬cond0_1 i) (x0 x1 : Vec F S128x256x64 .f32) (xs : Vec F S128x1 .f32) :
    sout0_B_0 c i a2 h2 a3 h3 a4 h4 a5 h5 a6 h6 hc0 hc1 x0 x1 xs = k0_pay3 x1 xs := by
  unfold sout0_B_0
  rw [View.read_writes_eq_canon _ _ _ (scover0_B_0 c i a2 h2 a3 h3 a4 h4 a5 h5 a6 h6 hc0 hc1 x0 x1 xs)]
  unfold kernelRun0_B
  dsimp only
  sl_unfold_words
  rw [View.canon_unit_zero hz2]
  simp only [View.readAt_eq_ld, h2.read_unread, h3.read_unread, h6.read_unread, View.ld_unit_zero (S := S128x256x64) hz3, View.ld_unit_zero (S := S128x1) hz2]

/-- The last horizon tile: the same. -/
theorem scratch_C (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : ¬cond0_0 i) (hc1 : cond0_1 i) (x0 x1 : Vec F S128x256x64 .f32) (xs : Vec F S128x1 .f32) :
    sout0_C_0 c i a2 h2 a3 h3 a4 h4 a5 h5 a6 h6 hc0 hc1 x0 x1 xs = k0_pay3 x1 xs := by
  unfold sout0_C_0
  rw [View.read_writes_eq_canon _ _ _ (scover0_C_0 c i a2 h2 a3 h3 a4 h4 a5 h5 a6 h6 hc0 hc1 x0 x1 xs)]
  unfold kernelRun0_C
  dsimp only
  sl_unfold_words
  rw [View.canon_unit_zero hz2]
  simp only [View.readAt_eq_ld, h2.read_unread, h3.read_unread, h6.read_unread, View.ld_unit_zero (S := S128x256x64) hz3, View.ld_unit_zero (S := S128x1) hz2]

/-! ## The count output, stored at the last horizon tile only: the scratch's final contents -/

theorem count_C (c : Dev nD) (i : grid0.Coords) (a2 : Memref sig .tc .vmem S128x256x64 .f32) (h2 : a2.IsWhole) (a3 : Memref sig .tc .vmem S128x256x64 .f32) (h3 : a3.IsWhole) (a4 : Memref sig .tc .vmem S128x256 .f32) (h4 : a4.IsWhole) (a5 : Memref sig .tc .vmem S128x1 .f32) (h5 : a5.IsWhole) (a6 : Memref sig .tc .vmem S128x1 .f32) (h6 : a6.IsWhole) (hc0 : ¬cond0_0 i) (hc1 : cond0_1 i) (x0 x1 : Vec F S128x256x64 .f32) (xs : Vec F S128x1 .f32) :
    out0_C_3 c i a2 h2 a3 h3 a4 h4 a5 h5 a6 h6 hc0 hc1 x0 x1 xs = k0_pay3 x1 xs := by
  unfold out0_C_3
  rw [View.read_writes_eq_canon _ _ _ (cover0_C_3 c i a2 h2 a3 h3 a4 h4 a5 h5 a6 h6 hc0 hc1 x0 x1 xs)]
  unfold kernelRun0_C
  dsimp only
  sl_unfold_words
  rw [View.canon_unit_zero hz2, View.readCov_unit_zero (S := S128x1) _ hz2]
  simp only [View.readAt_eq_ld, h2.read_unread, h3.read_unread, h6.read_unread, View.ld_unit_zero (S := S128x256x64) hz3, View.ld_unit_zero (S := S128x1) hz2]

end Cert.KernelIdeal.Pieces

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Count.lean ====
/-
  Two facts about the count of nonzero entries along the horizon, over the extended reals.

  The kernel turns the comparison "x ≠ 0" into a number by widening the one-bit answer to 32 bits and reading it as a
  signed integer; the reference reads the one-bit answer as an unsigned integer. Both give 1 where the entry is nonzero
  and 0 where it is zero (`ind_signed_eq`): on the extended reals the ordered and the unordered "not equal" are the
  same predicate, and a single bit widened with zeros is 0 or 1 under either reading.

  The kernel counts the 2048 entries of a row in eight runs of 256 consecutive entries; the reference counts them in one
  sum. A sum over 2048 positions is the sum, over the eight runs, of the sums inside each run (`sum_runs`): only
  commutativity and associativity of the addition are used, so no finiteness is needed.
-/
import Idealize.ShloMosaic.PureOps.Ideal.Laws
import Idealize.ShloMosaic.Lib.ValueIdx

noncomputable section

namespace Cert.NonzeroCount

open Idealize.ShloMosaic

/-- The indicator of a nonzero entry as an extended real: 1 where `x ≠ 0`, else 0 (the comparison's one-bit answer read
    as an unsigned integer). -/
def ind (x : EReal) : EReal := ((((Ideal.cmp .une x (Ideal.ofBits .f32 0x00000000#32)).toNat : ℕ) : ℝ) : EReal)

/-- A one-bit word widened with zeros to 32 bits and read signed is the bit read unsigned. -/
theorem bit_widened_toInt (b : BitVec 1) : (b.setWidth 32).toInt = (b.toNat : Int) := by
  rcases BitVec.eq_zero_or_eq_one b with rfl | rfl <;> decide

/-- The indicator of "x ≠ z" as the kernel computes it (ordered compare, widened, read signed) is the indicator as the
    reference computes it (unordered compare, read unsigned). -/
theorem ind_signed_eq (x z : EReal) :
    (((((Ideal.cmp .one x z).setWidth 32).toInt : Int) : ℝ) : EReal) = ((((Ideal.cmp .une x z).toNat : ℕ) : ℝ) : EReal) := by
  rw [bit_widened_toInt]
  have h : Ideal.cmp .one x z = Ideal.cmp .une x z := rfl
  rw [h]
  norm_cast

/-- The kernel's indicator of a nonzero entry is `ind`. -/
theorem ind_signed (x : EReal) :
    (((((Ideal.cmp .one x (Ideal.ofBits .f32 0x00000000#32)).setWidth 32).toInt : Int) : ℝ) : EReal) = ind x :=
  ind_signed_eq x _

/-- A sum over 2048 consecutive positions, split into eight runs of 256. -/
theorem sum_runs {M : Type*} [AddCommMonoid M] (g : Fin 2048 → M) :
    ∑ k : Fin 2048, g k
      = ∑ s : Fin 8, ∑ h : Fin 256, g ⟨256 * s.val + h.val, by have := s.isLt; have := h.isLt; omega⟩ := by
  rw [← Equiv.sum_comp (finProdFinEquiv (m := 8) (n := 256)) g, Fintype.sum_prod_type]
  refine Finset.sum_congr rfl fun s _ => Finset.sum_congr rfl fun h _ => congrArg g (Fin.ext ?_)
  show h.val + 256 * s.val = 256 * s.val + h.val
  omega

end Cert.NonzeroCount

end
-- ==== Proof.Payload.lean ====
/-
  The two payloads of the kernel body, read at an index, over the extended reals.

  The squared-error payload at (p, q) of a block is the square of the difference of the two input blocks' channel 0 at
  (p, q). The counting payload at row r is what the scratch held at row r plus the number of nonzero entries among the
  256 positions of channel 1 of the second input block in row r: a channel is a unit-width slice along the last axis
  with that axis dropped, the lane sum from the zero accumulator is the plain sum of the row, and the column view of the
  128 row sums reads row r.
-/
import proofs.«136391_j46995532153317_1_alg».proof.Proof.Gen.KernelIdeal.Skeleton
import proofs.«136391_j46995532153317_1_alg».proof.Proof.LibKeepdims
import proofs.«136391_j46995532153317_1_alg».proof.Proof.Count
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx Cert.NonzeroCount

/-- Channel `o` of a block — the unit-width slice at offset `o` of the last axis, that axis dropped — at (p, q) is the
    block at (p, q, o). -/
theorem channel_apply (x : FVec Ideal S128x256x64 .f32) (o : Fin 64) (off : Fin 3 → Nat) (hoff : off = ![0, 0, o.val])
    (hs : S128x256x64.Slices off S128x256x1) (hc : S128x256x1.ShapeCasts S128x256) (p : Fin 128) (q : Fin 256) :
    shapeCast S128x256 (extractStridedSlice S128x256x1 off x hs) hc (ix2 p q) = x (ix3 p q o) := by
  subst hoff
  refine (shapeCast_apply _ hc (ix2 p q) (ix3 p q (0 : Fin 1)) ?_).trans ?_
  · rw [Shape.rowMajor_val_three, Shape.rowMajor_val_two]
    show (p.val * 256 + q.val) * 1 + 0 = p.val * 256 + q.val
    omega
  · refine extractStridedSlice_apply _ x hs (ix3 p q (0 : Fin 1)) (ix3 p q o) fun a => ?_
    match a with
    | ⟨0, _⟩ => show p.val = 0 + p.val; omega
    | ⟨1, _⟩ => show q.val = 0 + q.val; omega
    | ⟨2, _⟩ => show o.val = o.val + 0; omega

/-- The squared-error payload at (p, q). -/
theorem pay2_apply (x0 x1 : FVec Ideal S128x256x64 .f32) (p : Fin 128) (q : Fin 256) :
    k0_pay2 (F := Ideal) x0 x1 (ix2 p q)
      = (x0 (ix3 p q (0 : Fin 64)) - x1 (ix3 p q (0 : Fin 64))) * (x0 (ix3 p q (0 : Fin 64)) - x1 (ix3 p q (0 : Fin 64))) := by
  have e0 := channel_apply x0 0 ![0, 0, 0] rfl slices_S128x256x64_o0_0_0_S128x256x1 shapeCasts_S128x256x1_S128x256 p q
  have e1 := channel_apply x1 0 ![0, 0, 0] rfl slices_S128x256x64_o0_0_0_S128x256x1 shapeCasts_S128x256x1_S128x256 p q
  unfold k0_pay2
  show (shapeCast S128x256 (extractStridedSlice S128x256x1 ![0, 0, 0] x0 _) _ (ix2 p q)
      - shapeCast S128x256 (extractStridedSlice S128x256x1 ![0, 0, 0] x1 _) _ (ix2 p q))
    * (shapeCast S128x256 (extractStridedSlice S128x256x1 ![0, 0, 0] x0 _) _ (ix2 p q)
      - shapeCast S128x256 (extractStridedSlice S128x256x1 ![0, 0, 0] x1 _) _ (ix2 p q)) = _
  rw [e0, e1]

/-- The indicator array of the kernel body: nonzero entries of channel 1, as numbers. -/
def nz (x1 : FVec Ideal S128x256x64 .f32) : FVec Ideal S128x256 .f32 :=
  sitofp .f32 (extui 32 (cmpf .one (shapeCast S128x256 (extractStridedSlice S128x256x1 ![0, 0, 1] x1 slices_S128x256x64_o0_0_1_S128x256x1) shapeCasts_S128x256x1_S128x256)
    (broadcast S128x256 (Scalar.ofBits .f32 0x00000000#32))) natLt_1_32)

theorem nz_apply (x1 : FVec Ideal S128x256x64 .f32) (r : Fin 128) (k : Fin 256) :
    nz x1 (ix2 r k) = ind (x1 (ix3 r k (1 : Fin 64))) := by
  have e1 := channel_apply x1 1 ![0, 0, 1] rfl slices_S128x256x64_o0_0_1_S128x256x1 shapeCasts_S128x256x1_S128x256 r k
  refine Eq.trans ?_ (ind_signed (x1 (ix3 r k (1 : Fin 64))))
  rw [← e1]
  rfl

/-- The counting payload at row r: the scratch at row r plus the row's count of nonzero channel-1 entries. -/
theorem pay3_apply (x1 : FVec Ideal S128x256x64 .f32) (xs : FVec Ideal S128x1 .f32) (r : Fin 128) (u : Fin 1) :
    k0_pay3 (F := Ideal) x1 xs (ix2 r u) = xs (ix2 r u) + ∑ k : Fin 256, ind (x1 (ix3 r k (1 : Fin 64))) := by
  unfold k0_pay3
  show (shapeCast S128x1 (addf xs (shapeCast S128x1 (multiReduction .add [1] S128 (nz x1) 0x00000000#32 reduces_S128x256_S128 (.inl rfl) rfl)
      shapeCasts_S128_S128x1)) shapeCasts_S128x1_S128x1) (ix2 r u) = _
  rw [shapeCast_self]
  show xs (ix2 r u) + shapeCast S128x1 (multiReduction .add [1] S128 (nz x1) 0x00000000#32 reduces_S128x256_S128 (.inl rfl) rfl)
      shapeCasts_S128_S128x1 (ix2 r u) = _
  refine congrArg (xs (ix2 r u) + ·) ?_
  refine (Keepdims.shapeCast_a_a1_apply _ shapeCasts_S128_S128x1 r u).trans ?_
  refine (Keepdims.laneSum_apply (nz x1) 0x00000000#32 reduces_S128x256_S128 (.inl rfl) rfl r).trans ?_
  exact Finset.sum_congr rfl fun k _ => nz_apply x1 r k

/-- The reset payload is zero everywhere. -/
theorem pay1_apply (j : S128x1.Idx) : k0_pay1 (F := Ideal) j = 0 := by
  unfold k0_pay1
  show (shapeCast S128x1 (broadcast S128x1 (Scalar.ofBits (F := Ideal) .f32 0x00000000#32)) shapeCasts_S128x1_S128x1) j = 0
  rw [shapeCast_self]
  exact Ideal.ofBits_zero_f32

end Cert.KernelIdeal.PayloadAt

end
-- ==== Proof.Scratch.lean ====
/-
  The count scratch after each grid point, over the extended reals.

  The grid runs over (batch tile, horizon tile), the horizon tile fastest: point n is batch tile n / 8, horizon tile
  n % 8. At the first horizon tile of a batch tile the scratch is reset and the tile's row counts added; at each later
  one the tile's row counts are added to what the point before left. So after point n the scratch holds, at row r, the
  sum over the horizon tiles 0 … n % 8 of that batch tile of the number of nonzero channel-1 entries of row r within
  the tile: the library's fold over a run of consecutive points, opened as a sum of the points' addends.
-/
import proofs.«136391_j46995532153317_1_alg».proof.Proof.Pieces
import proofs.«136391_j46995532153317_1_alg».proof.Proof.Payload
import Idealize.ShloMosaic.Lib.Pipeline.Value

noncomputable section

namespace Cert.KernelIdeal.Scratch

open Cert.KernelIdeal Cert.KernelIdeal.Gen Idealize.ShloMosaic Idealize.ShloMosaic.TcCoe Idealize.SL.Sem
open Idealize.ShloMosaic.ValueIdx Cert.NonzeroCount

variable (m : (ℓ : Loc nD τ sig) → Buf (Elt Ideal) ℓ)

/-- The second input's block at point n, at its literal type. -/
abbrev tblk (c : Dev nD) (n : ℕ) (h : n < cfg0.N) : FVec Ideal S128x256x64 .f32 := iblk m c 1 ⟨n, h⟩

/-- The scratch after point n. -/
abbrev scr (c : Dev nD) (n : ℕ) (h : n < cfg0.N) : FVec Ideal S128x1 .f32 := (outsAt0 m c n h).2.2

/-- The count output's staging buffer after point n. -/
abbrev cnt (c : Dev nD) (n : ℕ) (h : n < cfg0.N) : FVec Ideal S128x1 .f32 := (outsAt0 m c n h).2.1

/-- At a first horizon tile the scratch ends at the counting payload over the zero block. -/
theorem scr_reset (c : Dev nD) (n : ℕ) (h : n < cfg0.N) (h0 : n % 8 = 0) :
    scr m c n h = k0_pay3 (tblk m c n h) (k0_pay1 (F := Ideal)) := by
  have h1 : ¬n % 8 = 7 := by omega
  show (outsAt0 m c (⟨n, h⟩ : Fin cfg0.N).val (⟨n, h⟩ : Fin cfg0.N).isLt).2.2 = _
  rw [outsAt0_A m c ⟨n, h⟩ h0 h1]
  dsimp only
  exact Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)

/-- At every other horizon tile it ends at the counting payload over what the point before left. -/
theorem scr_step (c : Dev nD) (n : ℕ) (h : n + 1 < cfg0.N) (h0 : ¬(n + 1) % 8 = 0) :
    scr m c (n + 1) h = k0_pay3 (tblk m c (n + 1) h) (scr m c n (Nat.lt_of_succ_lt h)) := by
  show (outsAt0 m c (⟨n + 1, h⟩ : Fin cfg0.N).val (⟨n + 1, h⟩ : Fin cfg0.N).isLt).2.2 = _
  by_cases h1 : (n + 1) % 8 = 7
  · rw [outsAt0_C m c ⟨n + 1, h⟩ h0 h1]
    dsimp only
    exact Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2
  · rw [outsAt0_B m c ⟨n + 1, h⟩ h0 h1]
    dsimp only
    exact Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2

/-- At a last horizon tile the count output's staging buffer holds what the scratch holds. -/
theorem cnt_last (c : Dev nD) (n : ℕ) (h : n < cfg0.N) (h1 : n % 8 = 7) : cnt m c n h = scr m c n h := by
  have h0 : ¬n % 8 = 0 := by omega
  show (outsAt0 m c (⟨n, h⟩ : Fin cfg0.N).val (⟨n, h⟩ : Fin cfg0.N).isLt).2.1 = (outsAt0 m c (⟨n, h⟩ : Fin cfg0.N).val (⟨n, h⟩ : Fin cfg0.N).isLt).2.2
  rw [outsAt0_C m c ⟨n, h⟩ h0 h1]
  dsimp only
  exact (Pieces.count_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (outsAt0 m c (n - 1) (Nat.lt_of_le_of_lt (Nat.sub_le _ _) h)).2.2).trans
    (Pieces.scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) (outsAt0 m c (n - 1) (Nat.lt_of_le_of_lt (Nat.sub_le _ _) h)).2.2).symm

/-- Row r's count of nonzero channel-1 entries within a block. -/
def rowCount (x1 : FVec Ideal S128x256x64 .f32) (r : Fin 128) : EReal := ∑ k : Fin 256, ind (x1 (ix3 r k (1 : Fin 64)))

/-- Point n's addend to the scratch (zero past the grid: never used). -/
def addend (c : Dev nD) (n : ℕ) (i : S128x1.Idx) : EReal :=
  if h : n < cfg0.N then rowCount (tblk m c n h) (i 0) else 0

theorem pay3_add (x1 : FVec Ideal S128x256x64 .f32) (xs : FVec Ideal S128x1 .f32) (i : S128x1.Idx) :
    k0_pay3 (F := Ideal) x1 xs i = xs i + rowCount x1 (i 0) := by
  obtain ⟨r, u, rfl⟩ : ∃ (r : Fin 128) (u : Fin 1), i = ix2 r u := ⟨i 0, i 1, eq_ix2 i⟩
  exact PayloadAt.pay3_apply x1 xs r u

/-- What a first horizon tile leaves in the scratch, and what a later one makes of the scratch it finds. -/
def resetAt (c : Dev nD) (n : ℕ) (h : n < cfg0.N) : S128x1.Idx → EReal :=
  k0_pay3 (F := Ideal) (tblk m c n h) (k0_pay1 (F := Ideal))
def stepAt (c : Dev nD) (n : ℕ) (h : n < cfg0.N) (acc : S128x1.Idx → EReal) : S128x1.Idx → EReal :=
  k0_pay3 (F := Ideal) (tblk m c n h) acc

theorem resetAt_apply (c : Dev nD) (n : ℕ) (h : n < cfg0.N) (i : S128x1.Idx) :
    resetAt m c n h i = 0 + addend m c n i := by
  unfold resetAt
  rw [pay3_add, PayloadAt.pay1_apply]
  unfold addend
  rw [dif_pos h]

theorem stepAt_apply (c : Dev nD) (n : ℕ) (h : n < cfg0.N) (acc : S128x1.Idx → EReal) (i : S128x1.Idx) :
    stepAt m c n h acc i = acc i + addend m c n i := by
  unfold stepAt
  rw [pay3_add]
  unfold addend
  rw [dif_pos h]

/-- THE SCRATCH AFTER POINT t: the sum of the addends of the points of its batch tile up to t. -/
theorem scr_eq_sum (c : Dev nD) (t : ℕ) (ht : t < cfg0.N) (i : S128x1.Idx) :
    scr m c t ht i = ∑ s ∈ Finset.range (t % 8 + 1), addend m c (8 * (t / 8) + s) i := by
  have h' : 8 * (t / 8) + t % 8 < cfg0.N := by rw [Nat.div_add_mod]; exact ht
  have e := Pipeline.eq_accAt_of_mod (α := S128x1.Idx → EReal) (scr m c) 8 (resetAt m c) (stepAt m c)
    (fun n h h0 => scr_reset m c n h h0) (fun n h h0 => scr_step m c n h h0) (by decide) t ht h'
  rw [e]
  exact (Pipeline.accAt_add_apply (ι := S128x1.Idx) (β := EReal) (resetAt m c) (stepAt m c) (fun _ => (0 : EReal)) (addend m c)
    (8 * (t / 8)) (t % 8) (fun h i => resetAt_apply m c _ h i) (fun n h acc i _ _ => stepAt_apply m c n h acc i)
    (t % 8) (le_refl _) h' i).trans (zero_add _)

end Cert.KernelIdeal.Scratch

end
-- ==== Proof.RegionValue.lean ====
/-
  The two arrays the kernel region leaves, over the extended reals, as functions of the two argument arrays.

  Grid point t is batch tile t / 8 and horizon tile t % 8; every window's block at t starts at row 128 · (t / 8) and (for
  the three windows with a horizon axis) at position 256 · (t % 8). Every point writes its squared-error block back, and
  the blocks tile the [512, 2048] array: the array ends at the square of the difference of the arguments' channel 0,
  entry by entry. The count output is written back at the last horizon tile of each batch tile only, when the scratch
  holds the sum over all eight horizon tiles of the row counts: the [512, 1] array ends, at row b, at the number of
  nonzero channel-1 entries of row b over the whole horizon (eight runs of 256 make the 2048 positions).
-/
import proofs.«136391_j46995532153317_1_alg».proof.Proof.Scratch
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx Cert.NonzeroCount
open Idealize.ShloMosaic.Pipeline (Dat)

variable (m : (ℓ : Loc nD τ sig) → Buf (Elt Ideal) ℓ)

/-- The argument arrays as the region finds them, at their literal type. -/
abbrev predArr (c : Dev nD) : FVec Ideal S512x2048x64 .f32 := V m c main_arg0
abbrev targArr (c : Dev nD) : FVec Ideal S512x2048x64 .f32 := V m c main_arg1

/-- The printed index maps, decided over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- The first input's block at point t reads the first argument at the block's offsets. -/
theorem pblk_apply (c : Dev nD) (t : Fin cfg0.N) (p : Fin 128) (q : Fin 256) (o : Fin 64) (b : Fin 512) (h : Fin 2048)
    (hb : b.val = 128 * (t.val / 8) + p.val) (hh : h.val = 256 * (t.val % 8) + q.val) :
    (iblk m c 0 t : FVec Ideal S128x256x64 .f32) (ix3 p q o) = predArr m c (ix3 b h o) := by
  obtain ⟨e0, e1, e2, -⟩ := idx_facts t
  show V m c main_arg0 (((cfg0.win 0).blk t).view.emb (ix3 p q o)) = _
  refine congrArg (V m c main_arg0) (funext fun a => Fin.ext ?_)
  match a with
  | ⟨0, _⟩ => show win0_0.index t (0 : Fin 3) * 128 + 1 * p.val = b.val; rw [e0, hb]; omega
  | ⟨1, _⟩ => show win0_0.index t (1 : Fin 3) * 256 + 1 * q.val = h.val; rw [e1, hh]; omega
  | ⟨2, _⟩ => show win0_0.index t (2 : Fin 3) * 64 + 1 * o.val = o.val; rw [e2]; omega

/-- The second input's block at point t reads the second argument at the block's offsets. -/
theorem tblk_apply (c : Dev nD) (t : Fin cfg0.N) (p : Fin 128) (q : Fin 256) (o : Fin 64) (b : Fin 512) (h : Fin 2048)
    (hb : b.val = 128 * (t.val / 8) + p.val) (hh : h.val = 256 * (t.val % 8) + q.val) :
    (iblk m c 1 t : FVec Ideal S128x256x64 .f32) (ix3 p q o) = targArr m c (ix3 b h o) := by
  obtain ⟨-, -, -, e0, e1, e2, -⟩ := idx_facts t
  show V m c main_arg1 (((cfg0.win 1).blk t).view.emb (ix3 p q o)) = _
  refine congrArg (V m c main_arg1) (funext fun a => Fin.ext ?_)
  match a with
  | ⟨0, _⟩ => show win0_1.index t (0 : Fin 3) * 128 + 1 * p.val = b.val; rw [e0, hb]; omega
  | ⟨1, _⟩ => show win0_1.index t (1 : Fin 3) * 256 + 1 * q.val = h.val; rw [e1, hh]; omega
  | ⟨2, _⟩ => show win0_1.index t (2 : Fin 3) * 64 + 1 * o.val = o.val; rw [e2]; omega

/-! ## The squared error -/

/-- The squared difference of the two arrays' channel 0 at (b, h). -/
def sqErrAt (x y : FVec Ideal S512x2048x64 .f32) (b : Fin 512) (h : Fin 2048) : EReal :=
  (x (ix3 b h (0 : Fin 64)) - y (ix3 b h (0 : Fin 64))) * (x (ix3 b h (0 : Fin 64)) - y (ix3 b h (0 : Fin 64)))

/-- The squared-error array. -/
def sqErr (x y : FVec Ideal S512x2048x64 .f32) : FVec Ideal S512x2048 .f32 :=
  fun i => sqErrAt x y ⟨(i 0).val, idx2_lt0 i⟩ ⟨(i 1).val, idx2_lt1 i⟩

/-- Whatever the case, the squared-error staging buffer after point t holds the payload of the two input blocks. -/
theorem sqerr_after (c : Dev nD) (t : Fin cfg0.N) :
    (outsAt0 m c t.val t.isLt).1 = k0_pay2 (F := Ideal) (iblk m c 0 t) (iblk m c 1 t) := by
  have hN : t.val < 32 := lt_of_lt_of_eq t.isLt (show cfg0.N = 32 from N_0)
  by_cases h0 : t.val % 8 = 0
  · have h1 : ¬t.val % 8 = 7 := by omega
    rw [outsAt0_A m c t h0 h1]
    dsimp only
    exact Pieces.sqerr_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (iblk m c 0 t) (iblk m c 1 t)
  · by_cases h1 : t.val % 8 = 7
    · rw [outsAt0_C m c t h0 h1]
      dsimp only
      exact Pieces.sqerr_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact Pieces.sqerr_B (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.2

/-- WHAT POINT t WRITES BACK to the squared-error array is block t of `sqErr` of the arguments. -/
theorem sqerr_flushed (c : Dev nD) (t : Fin cfg0.N) :
    (dats m 0 c).flushed 2 t = ((cfg0.win 2).blk t).view.read (Elt Ideal) (sqErr (predArr m c) (targArr m c)) := by
  show (cfg0.win 2).cut (grid0.coords t) ((dats m 0 c).after 2 t) = _
  rw [after0_2, sqerr_after]
  obtain ⟨-, -, -, -, -, -, e0, e1, -⟩ := idx_facts t
  have hN : t.val < 32 := lt_of_lt_of_eq t.isLt (show cfg0.N = 32 from N_0)
  funext j
  obtain ⟨p, q, rfl⟩ : ∃ (p : Fin 128) (q : Fin 256), j = ix2 p q := ⟨j 0, j 1, eq_ix2 j⟩
  have hb : 128 * (t.val / 8) + p.val < 512 := by have := p.isLt; omega
  have hh : 256 * (t.val % 8) + q.val < 2048 := by have := q.isLt; omega
  show k0_pay2 (F := Ideal) (iblk m c 0 t) (iblk m c 1 t) (ix2 p q)
    = sqErr (predArr m c) (targArr m c) (((cfg0.win 2).blk t).view.emb (ix2 p q))
  refine (PayloadAt.pay2_apply (iblk m c 0 t) (iblk m c 1 t) p q).trans ?_
  rw [pblk_apply m c t p q 0 ⟨_, hb⟩ ⟨_, hh⟩ rfl rfl, tblk_apply m c t p q 0 ⟨_, hb⟩ ⟨_, hh⟩ rfl rfl]
  unfold sqErr
  refine congrArg₂ (sqErrAt (predArr m c) (targArr m c)) (Fin.ext ?_) (Fin.ext ?_)
  · show 128 * (t.val / 8) + p.val = win0_2.index t (0 : Fin 2) * 128 + 1 * p.val
    rw [e0]; omega
  · show 256 * (t.val % 8) + q.val = win0_2.index t (1 : Fin 2) * 256 + 1 * q.val
    rw [e1]; omega

/-- An index of the squared-error array is in point t's block iff each coordinate is in the block's range. -/
theorem mem_blk2 (t : Fin cfg0.N) (i : S512x2048.Idx) :
    i ∈ ((cfg0.win 2).blk t).view.set ↔ ∀ a : Fin 2, win0_2.index t a * S128x256.size a ≤ (i a).val ∧ (i a).val < win0_2.index t a * S128x256.size a + S128x256.size a := by
  show i ∈ ((View.whole main_v0_0).slice (win0_2.rect t)).set ↔ _
  rw [View.set_slice_whole, Rect.mem_set_unit]
  exact Iff.rfl

/-- THE SQUARED-ERROR ARRAY after the run. -/
theorem sqerr_final (c : Dev nD) : (dats m 0 c).arrAt 2 cfg0.N = sqErr (predArr m c) (targArr m c) :=
  (dats m 0 c).arrAt_eq_of_cover 2 (sqErr (predArr m c) (targArr m c)) (fun t _ => sqerr_flushed m c t) fun i => by
    have hi0 : (i 0).val < 512 := (i 0).isLt
    have hi1 : (i 1).val < 2048 := (i 1).isLt
    have hN : cfg0.N = 32 := N_0
    let t : Fin cfg0.N := ⟨8 * ((i 0).val / 128) + (i 1).val / 256, by rw [hN]; omega⟩
    obtain ⟨-, -, -, -, -, -, e0, e1, -⟩ := idx_facts t
    have ht : t.val = 8 * ((i 0).val / 128) + (i 1).val / 256 := rfl
    refine ⟨t, flush0_2 t, ?_⟩
    rw [mem_blk2]
    intro a
    match a with
    | ⟨0, _⟩ => show win0_2.index t (0 : Fin 2) * 128 ≤ (i 0).val ∧ (i 0).val < win0_2.index t (0 : Fin 2) * 128 + 128; rw [e0, ht]; omega
    | ⟨1, _⟩ => show win0_2.index t (1 : Fin 2) * 256 ≤ (i 1).val ∧ (i 1).val < win0_2.index t (1 : Fin 2) * 256 + 256; rw [e1, ht]; omega

/-! ## The count -/

/-- The number of nonzero channel-1 entries of row b over the whole horizon. -/
def countAt (y : FVec Ideal S512x2048x64 .f32) (b : Fin 512) : EReal := ∑ k : Fin 2048, ind (y (ix3 b k (1 : Fin 64)))

/-- The count array, as the column the kernel writes. -/
def countCol (y : FVec Ideal S512x2048x64 .f32) : FVec Ideal S512x1 .f32 := fun i => countAt y ⟨(i 0).val, idx2_lt0 i⟩

/-- Point 8q + s's addend at row r is the count of row 128q + r within horizon run s. -/
theorem addend_apply (c : Dev nD) (q s : ℕ) (hq : q < 4) (hs : s < 8) (r : Fin 128) (u : Fin 1) (b : Fin 512) (hb : b.val = 128 * q + r.val) :
    Scratch.addend m c (8 * q + s) (ix2 r u)
      = ∑ k : Fin 256, ind (targArr m c (ix3 b ⟨256 * s + k.val, by have := k.isLt; omega⟩ (1 : Fin 64))) := by
  have hN : cfg0.N = 32 := N_0
  have hlt : 8 * q + s < cfg0.N := by rw [hN]; omega
  unfold Scratch.addend
  rw [dif_pos hlt]
  unfold Scratch.rowCount
  refine Finset.sum_congr rfl fun k _ => congrArg ind ?_
  refine tblk_apply m c ⟨8 * q + s, hlt⟩ r k 1 b ⟨256 * s + k.val, by have := k.isLt; omega⟩ ?_ ?_
  · show b.val = 128 * ((8 * q + s) / 8) + r.val
    rw [hb]; omega
  · show 256 * s + k.val = 256 * ((8 * q + s) % 8) + k.val
    omega

/-- WHAT A LAST HORIZON TILE WRITES BACK to the count array is its block of `countCol` of the second argument. -/
theorem count_flushed (c : Dev nD) (t : Fin cfg0.N) (hf : (cfg0.win 3).flush t = true) :
    (dats m 0 c).flushed 3 t = ((cfg0.win 3).blk t).view.read (Elt Ideal) (countCol (targArr m c)) := by
  have h7 : t.val % 8 = 7 := (flush0_3 t).mp hf
  have hN : t.val < 32 := lt_of_lt_of_eq t.isLt (show cfg0.N = 32 from N_0)
  obtain ⟨-, -, -, -, -, -, -, -, e0, e1⟩ := idx_facts t
  show (cfg0.win 3).cut (grid0.coords t) ((dats m 0 c).after 3 t) = _
  rw [after0_3]
  funext j
  obtain ⟨r, u, rfl⟩ : ∃ (r : Fin 128) (u : Fin 1), j = ix2 r u := ⟨j 0, j 1, eq_ix2 j⟩
  show Scratch.cnt m c t.val t.isLt (ix2 r u) = countCol (targArr m c) (((cfg0.win 3).blk t).view.emb (ix2 r u))
  rw [Scratch.cnt_last m c t.val t.isLt h7, Scratch.scr_eq_sum m c t.val t.isLt (ix2 r u), h7]
  have hb : 128 * (t.val / 8) + r.val < 512 := by have := r.isLt; omega
  unfold countCol
  have hrow : (⟨((((cfg0.win 3).blk t).view.emb (ix2 r u)) 0).val, idx2_lt0 _⟩ : Fin 512) = ⟨128 * (t.val / 8) + r.val, hb⟩ := by
    apply Fin.ext
    show win0_3.index t (0 : Fin 2) * 128 + 1 * r.val = 128 * (t.val / 8) + r.val
    rw [e0]; omega
  rw [hrow]
  unfold countAt
  rw [sum_runs, Finset.sum_range]
  refine Finset.sum_congr rfl fun s _ => ?_
  exact addend_apply m c (t.val / 8) s.val (by omega) s.isLt r u ⟨_, hb⟩ rfl

/-- An index of the count array is in point t's block iff each coordinate is in the block's range. -/
theorem mem_blk3 (t : Fin cfg0.N) (i : S512x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v0_1).slice (win0_3.rect t)).set ↔ _
  rw [View.set_slice_whole, Rect.mem_set_unit]
  exact Iff.rfl

/-- THE COUNT ARRAY after the run. -/
theorem count_final (c : Dev nD) : (dats m 0 c).arrAt 3 cfg0.N = countCol (targArr m c) :=
  (dats m 0 c).arrAt_eq_of_cover 3 (countCol (targArr m c)) (fun t hf => count_flushed m c t hf) fun i => by
    have hi0 : (i 0).val < 512 := (i 0).isLt
    have hi1 : (i 1).val < 1 := (i 1).isLt
    have hN : cfg0.N = 32 := N_0
    let t : Fin cfg0.N := ⟨8 * ((i 0).val / 128) + 7, by rw [hN]; omega⟩
    obtain ⟨-, -, -, -, -, -, -, -, e0, e1⟩ := idx_facts t
    have ht : t.val = 8 * ((i 0).val / 128) + 7 := rfl
    refine ⟨t, (flush0_3 t).mpr (by rw [ht]; omega), ?_⟩
    rw [mem_blk3]
    intro a
    match a with
    | ⟨0, _⟩ => show win0_3.index t (0 : Fin 2) * 128 ≤ (i 0).val ∧ (i 0).val < win0_3.index t (0 : Fin 2) * 128 + 128; rw [e0, ht]; omega
    | ⟨1, _⟩ => show win0_3.index t (1 : Fin 2) * 1 ≤ (i 1).val ∧ (i 1).val < win0_3.index t (1 : Fin 2) * 1 + 1; rw [e1]; omega

end Cert.KernelIdeal.RegionValue

end
-- ==== Proof.RefValue.lean ====
/-
  The reference's result, as the same host function of the same two arrays.

  The reference computes the per-row count of nonzero channel-1 entries of the second argument as one sum over the 2048
  horizon positions, the squared difference of the arguments' channel 0 entry by entry, and then runs the very host lines
  the kernel's program runs after its region. So its result is the weighted loss of the squared-error array and of the
  count vector; and those two arrays are, index by index over the extended reals, the ones the kernel's region leaves:
  the same square of the same difference, and the same count (the zero initial value of the host's sum adds nothing).
-/
import proofs.«136391_j46995532153317_1_alg».proof.Proof.RefRead
import proofs.«136391_j46995532153317_1_alg».proof.Proof.HostTail
import proofs.«136391_j46995532153317_1_alg».proof.Proof.RegionValue

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.NonzeroCount
open Cert.KernelIdeal.RegionValue (sqErr sqErrAt countAt countCol)
open Cert.KernelIdeal.HostTail (weightedLoss picked wrapped position weight)

section Generic
variable {F : FTy → Type} [FloatOps F]

set_option maxRecDepth 8192 in
set_option maxHeartbeats 4000000 in
/-- The reference's result is the weighted loss of its squared-error stage and its count stage. -/
theorem result_eq (x0 x1 : (⟨S512x2048x64, .f32⟩ : BufTy).Contents (Elt F)) :
    val_main_v30 (F := F) x0 x1 = weightedLoss (F := F) (val_main_v22 (F := F) x0 x1) (val_main_v5 (F := F) x1) := by
  unfold weightedLoss picked wrapped position weight
  rfl

end Generic

/-! ## The two stages, index by index, over the extended reals -/

/-- The reference's squared-error stage is the squared-error array. -/
theorem sqerr_stage (x0 x1 : (⟨S512x2048x64, .f32⟩ : BufTy).Contents (Elt Ideal)) :
    val_main_v22 (F := Ideal) x0 x1 = sqErr x0 x1 := by
  funext i
  obtain ⟨b, h, rfl⟩ : ∃ (b : Fin 512) (h : Fin 2048), i = ix2 b h := ⟨i 0, i 1, eq_ix2 i⟩
  have hb := b.isLt
  have hh := h.isLt
  have e0 : idx_main_v17 (idx_main_v18 (ix2 b h)) = ix3 b h (0 : Fin 64) := funext fun a => Fin.ext (by
    match a with
    | ⟨0, _⟩ => show (b.val * 2048 + h.val) / 2048 = b.val; omega
    | ⟨1, _⟩ => show (b.val * 2048 + h.val) / 1 % 2048 = h.val; omega
    | ⟨2, _⟩ => rfl)
  have e1 : idx_main_v19 (idx_main_v20 (ix2 b h)) = ix3 b h (0 : Fin 64) := funext fun a => Fin.ext (by
    match a with
    | ⟨0, _⟩ => show (b.val * 2048 + h.val) / 2048 = b.val; omega
    | ⟨1, _⟩ => show (b.val * 2048 + h.val) / 1 % 2048 = h.val; omega
    | ⟨2, _⟩ => rfl)
  rw [val_main_v22_apply, val_main_v21_apply, val_main_v18_apply, val_main_v17_apply, val_main_v20_apply, val_main_v19_apply, e0, e1]
  rfl

/-- The reference's count stage is the count column read as a vector. -/
theorem count_stage (x1 : (⟨S512x2048x64, .f32⟩ : BufTy).Contents (Elt Ideal)) (hc : Cert.KernelIdeal.S512x1.ShapeCasts Cert.KernelIdeal.S512) :
    val_main_v5 (F := Ideal) x1 = shapeCast Cert.KernelIdeal.S512 (countCol x1) hc := by
  funext i
  obtain ⟨b, rfl⟩ : ∃ b : Fin 512, i = ix1 b := ⟨i 0, eq_ix1 i⟩
  have hb := b.isLt
  refine Eq.trans ?_ (shapeCast_apply (countCol x1) hc (ix1 b) (ix2 b (0 : Fin 1)) (by
    rw [Shape.rowMajor_val_two, Shape.rowMajor_val_one]
    show b.val * 1 + 0 = b.val
    omega)).symm
  rw [val_main_v5_apply]
  have hz : val_main_cst_0 (F := Ideal) (Shape.Idx.first h_S_) = 0 := Ideal.ofBits_zero_f32
  rw [hz, zero_add]
  show _ = countAt x1 b
  unfold countAt
  refine Finset.sum_congr rfl fun k _ => ?_
  have hk := k.isLt
  have e : idx_main_v0 (idx_main_v1 (idx_main_v5 (ix1 b) k)) = ix3 b k (1 : Fin 64) := funext fun a => Fin.ext (by
    match a with
    | ⟨0, _⟩ => show (b.val * 2048 + k.val) / 2048 = b.val; omega
    | ⟨1, _⟩ => show (b.val * 2048 + k.val) / 1 % 2048 = k.val; omega
    | ⟨2, _⟩ => rfl)
  rw [val_main_v4_apply, val_main_v3_apply, val_main_v1_apply, val_main_v0_apply, val_main_v2_apply, val_main_cst_apply, e]
  rfl

end Cert.ReferenceIdeal.RefValue

end
-- ==== Proof.lean ====
/-
  The kernel streams the two [512, 2048, 64] arguments once, in tiles of 128 rows by 256 horizon positions, and leaves two
  arrays: the squared difference of channel 0, entry by entry, and, per row, the number of nonzero channel-1 entries of
  the second argument, accumulated over the eight horizon tiles of the row's batch tile in a scratch that is reset at the
  first and copied out at the last. The host lines after it turn the count into a weight and a position, pick the
  squared error at that position, and average. The reference computes the same two arrays with whole-array operations and
  then runs the same host lines.

  Over the extended reals the two squared-error arrays are the same product of the same differences, and the two counts
  agree because a sum over the 2048 positions is the sum over eight runs of 256 of the sums inside each run, the kernel's
  indicator of a nonzero entry (ordered compare, widened, read signed) and the reference's (unordered compare, read
  unsigned) are both 1 or 0, and the zero initial values add nothing. Only commutativity and associativity of the
  addition are used: the precondition is never opened. The shared host lines are carried as one function and never
  opened.

  The frames of the two kernel programs are the generated ones; the reference's is its run with the result dropped; the
  ideal pass rewrote nothing, so the idealization claim is trivial.
-/
import proofs.«136391_j46995532153317_1_alg».proof.Defs
import proofs.«136391_j46995532153317_1_alg».proof.Proof.Gen.Kernel
import proofs.«136391_j46995532153317_1_alg».proof.Proof.Gen.Kernel.Frame
import proofs.«136391_j46995532153317_1_alg».proof.Proof.Gen.KernelIdeal
import proofs.«136391_j46995532153317_1_alg».proof.Proof.Gen.KernelIdeal.Frame
import proofs.«136391_j46995532153317_1_alg».proof.Proof.Gen.ReferenceIdeal
import proofs.«136391_j46995532153317_1_alg».proof.Proof.Gen.Pre_finite_inputs
import proofs.«136391_j46995532153317_1_alg».proof.Proof.RefRun
import proofs.«136391_j46995532153317_1_alg».proof.Proof.RefRead
import proofs.«136391_j46995532153317_1_alg».proof.Proof.HostTail
import proofs.«136391_j46995532153317_1_alg».proof.Proof.RegionValue
import proofs.«136391_j46995532153317_1_alg».proof.Proof.RefValue
import Idealize.ShloMosaic.Adequacy
import Idealize.ShloMosaic.Init

noncomputable section

namespace Cert.Proof

open Idealize.ShloMosaic Idealize.ShloMosaic.TcCoe Idealize.SL.Sem

/-- The kernel program's result as a function of its two arguments: the weighted loss of the squared-error array and of
    the count column read as a vector. -/
def kernelResult (x0 x1 : FVec Ideal Cert.KernelIdeal.S512x2048x64 .f32) : FVec Ideal Cert.KernelIdeal.S_ .f32 :=
  Cert.KernelIdeal.HostTail.weightedLoss (F := Ideal) (Cert.KernelIdeal.RegionValue.sqErr x0 x1)
    (shapeCast Cert.KernelIdeal.S512 (Cert.KernelIdeal.RegionValue.countCol x1) Cert.KernelIdeal.Gen.shapeCasts_S512x1_S512)

section KernelRun
open Cert.KernelIdeal Cert.KernelIdeal.Gen

/-- The idealized kernel program's run, read: its result at `kernelResult` of the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans
        ((HostTail.kernel_result m c).trans (by rw [RegionValue.sqerr_final m c, RegionValue.count_final m c]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end KernelRun

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the weighted loss of the same squared-error array and the same count vector. -/
theorem algebraic : Cert.algebraic_KernelIdeal_ReferenceIdeal := by
  intro m ρ m' ρ' _ hagree
  refine ⟨fun c => kernelResult (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq, Cert.ReferenceIdeal.RefValue.sqerr_stage,
    Cert.ReferenceIdeal.RefValue.count_stage _ Cert.KernelIdeal.Gen.shapeCasts_S512x1_S512, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
